-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S27x32x32 : Shape := ⟨3, ![27, 32, 32]⟩
abbrev S32 : Shape := ⟨1, ![32]⟩
abbrev S3538944x2 : Shape := ⟨2, ![3538944, 2]⟩
abbrev S27 : Shape := ⟨1, ![27]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S27x32x32 : S_.BroadcastsInDim S27x32x32 (![] : Fin 0 → Fin S27x32x32.rank)
  reducesTo_S27x32x32_S_d0_1_2 : S27x32x32.ReducesTo [0, 1, 2] S_
  bcast_S_S32 : S_.BroadcastsInDim S32 (![] : Fin 0 → Fin S32.rank)
  reducesTo_S32_S_d0 : S32.ReducesTo [0] S_

variable [Facts]

def fn {F : FTy → Type} [FloatOps F] (main_arg0 : FVec F S262144x32 .f32) (main_arg1 : FVec F S27x32x32 .f32) (main_arg2 : FVec F S32 .f32) (main_arg3 : IVec S3538944x2 32) (main_arg4 : IVec S27 32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S27x32x32 .f32 := Host.absf main_arg1
  let main_cst_0 : FVec F S_ .f32 := constant S_ .f32 0x7F800000#32
  let main_v5 : FVec F S27x32x32 .f32 := broadcastInDim S27x32x32 ![] bcast_S_S27x32x32 main_cst_0
  let main_v6 : IVec S27x32x32 1 := cmpf .olt main_v4 main_v5
  let main_c_1 : IVec S_ 1 := constantI S_ 1 1#1
  let main_v7 : IVec S_ 1 := (fun x v => Host.reduce IntOp.andi x v reducesTo_S27x32x32_S_d0_1_2 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S262144x32 : Shape := ⟨2, ![262144, 32]⟩
abbrev S27x32x32 : Shape := ⟨3, ![27, 32, 32]⟩
abbrev S32 : Shape := ⟨1, ![32]⟩
abbrev S3538944x2 : Shape := ⟨2, ![3538944, 2]⟩
abbrev S27 : Shape := ⟨1, ![27]⟩
abbrev S3538944x1 : Shape := ⟨2, ![3538944, 1]⟩
abbrev S3538944 : Shape := ⟨1, ![3538944]⟩
abbrev S_ : Shape := ⟨0, ![]⟩
abbrev S3538944x32 : Shape := ⟨2, ![3538944, 32]⟩
abbrev S27x131072x32 : Shape := ⟨3, ![27, 131072, 32]⟩
abbrev S1x8192x32 : Shape := ⟨3, ![1, 8192, 32]⟩
abbrev S1x32x32 : Shape := ⟨3, ![1, 32, 32]⟩
abbrev S8192x32 : Shape := ⟨2, ![8192, 32]⟩
abbrev S32x32 : Shape := ⟨2, ![32, 32]⟩
abbrev S1x32 : Shape := ⟨2, ![1, 32]⟩

abbrev nBuf : Space → Nat
  | .hbm => 28
  | .vmem => 6
  | .smem => 0
  | _ => 0

abbrev bufTy : (tb : Table) → Fin (tcTables nBuf tb) → BufTy
  | .hbm, ⟨0, _⟩ => ⟨S262144x32, .f32⟩
  | .hbm, ⟨1, _⟩ => ⟨S27x32x32, .f32⟩
  | .hbm, ⟨2, _⟩ => ⟨S32, .f32⟩
  | .hbm, ⟨3, _⟩ => ⟨S3538944x2, .i32⟩
  | .hbm, ⟨4, _⟩ => ⟨S27, .i32⟩
  | .hbm, ⟨5, _⟩ => ⟨S3538944x1, .i32⟩
  | .hbm, ⟨6, _⟩ => ⟨S3538944, .i32⟩
  | .hbm, ⟨7, _⟩ => ⟨S_, .i32⟩
  | .hbm, ⟨8, _⟩ => ⟨S3538944, .i32⟩
  | .hbm, ⟨9, _⟩ => ⟨S3538944, .i1⟩
  | .hbm, ⟨10, _⟩ => ⟨S_, .i32⟩
  | .hbm, ⟨11, _⟩ => ⟨S3538944, .i32⟩
  | .hbm, ⟨12, _⟩ => ⟨S3538944, .i32⟩
  | .hbm, ⟨13, _⟩ => ⟨S3538944, .i32⟩
  | .hbm, ⟨14, _⟩ => ⟨S3538944x1, .i32⟩
  | .hbm, ⟨15, _⟩ => ⟨S3538944x32, .f32⟩
  | .hbm, ⟨16, _⟩ => ⟨S27x131072x32, .f32⟩
  | .hbm, ⟨17, _⟩ => ⟨S27x131072x32, .f32⟩
  | .hbm, ⟨18, _⟩ => ⟨S3538944x32, .f32⟩
  | .hbm, ⟨19, _⟩ => ⟨S3538944x1, .i32⟩
  | .hbm, ⟨20, _⟩ => ⟨S3538944, .i32⟩
  | .hbm, ⟨21, _⟩ => ⟨S_, .f32⟩
  | .hbm, ⟨22, _⟩ => ⟨S262144x32, .f32⟩
  | .hbm, ⟨23, _⟩ => ⟨S3538944x1, .i32⟩
  | .hbm, ⟨24, _⟩ => ⟨S262144x32, .f32⟩
  | .hbm, ⟨25, _⟩ => ⟨S1x32, .f32⟩
  | .hbm, ⟨26, _⟩ => ⟨S262144x32, .f32⟩
  | .hbm, ⟨27, _⟩ => ⟨S262144x32, .f32⟩
  | .local _ .vmem, ⟨0, _⟩ => ⟨S1x8192x32, .f32⟩
  | .local _ .vmem, ⟨1, _⟩ => ⟨S1x8192x32, .f32⟩
  | .local _ .vmem, ⟨2, _⟩ => ⟨S1x32x32, .f32⟩
  | .local _ .vmem, ⟨3, _⟩ => ⟨S1x32x32, .f32⟩
  | .local _ .vmem, ⟨4, _⟩ => ⟨S1x8192x32, .f32⟩
  | .local _ .vmem, ⟨5, _⟩ => ⟨S1x8192x32, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S3538944x2_S3538944x1_0_0 : S3538944x2.Slices ![0, 0] S3538944x1
  shapeCasts_S3538944x1_S3538944 : S3538944x1.ShapeCasts S3538944
  bcast_S_S3538944 : S_.BroadcastsInDim S3538944 (![] : Fin 0 → Fin S3538944.rank)
  bcast_S3538944_S3538944x1_0 : S3538944.BroadcastsInDim S3538944x1 (![0] : Fin 1 → Fin S3538944x1.rank)
  shapeCasts_S3538944x32_S27x131072x32 : S3538944x32.ShapeCasts S27x131072x32
  inb_S1x8192x32_S1x8192x32_0_0_0 : ∀ a, (![0, 0, 0] : Fin 3 → Nat) a + S1x8192x32.size a ≤ S1x8192x32.size a
  h_S1x8192x32 : 0 < S1x8192x32.numel
  shapeCasts_S1x8192x32_S8192x32 : S1x8192x32.ShapeCasts S8192x32
  bitsLt_bf16_f32 : FTy.bits .bf16 < FTy.bits .f32
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  shapeCasts_S8192x32_S1x8192x32 : S8192x32.ShapeCasts S1x8192x32
  shapeCasts_S27x131072x32_S3538944x32 : S27x131072x32.ShapeCasts S3538944x32
  slices_S3538944x2_S3538944x1_0_1 : S3538944x2.Slices ![0, 1] S3538944x1
  bcast_S_S262144x32 : S_.BroadcastsInDim S262144x32 (![] : Fin 0 → Fin S262144x32.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  gather_S262144x32_S3538944x1_S3538944x32_1_0_n_n_0_1_132_wf : GatherDims.WF S262144x32 S3538944x1 S3538944x32 [1] [0] [] [0] [] 1 ![1, 32]
  dot_S8192x32_S32x32_S8192x32_1_0_0_1_n_n_wf : DotDims.WF S8192x32 S32x32 S8192x32 [1] [0] [0] [1] [] []
  scatter_S262144x32_S3538944x1_S3538944x32_1_0_0_1_wf : ScatterDims.WF S262144x32 S3538944x1 S3538944x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x32.size a ≤ S27x131072x32.size a
  hwx0_0 : ∀ i : grid0.Coords, EltTy.bits .f32 = 32 ∨ (Rect.block (s := S27x131072x32) S1x8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32.size a ≤ S27x32x32.size a
  hwx0_1 : ∀ i : grid0.Coords, EltTy.bits .f32 = 32 ∨ (Rect.block (s := S27x32x32) S1x32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x32.size a ≤ S27x131072x32.size a
  hwx0_2 : ∀ i : grid0.Coords, EltTy.bits .f32 = 32 ∨ (Rect.block (s := S27x131072x32) S1x8192x32.size (cc0_transform_2 i) (hinb0_2 i)).WholeWords (EltTy.packing .f32)

variable [Facts₀]

def gather_S262144x32_S3538944x1_S3538944x32_1_0_n_n_0_1_132 : GatherDims S262144x32 S3538944x1 S3538944x32 where
  offsetDims := [1]
  collapsedSliceDims := [0]
  operandBatchingDims := []
  startIndicesBatchingDims := []
  startIndexMap := [0]
  indexVectorDim := 1
  sliceSizes := ![1, 32]
  wf := gather_S262144x32_S3538944x1_S3538944x32_1_0_n_n_0_1_132_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def scatter_S262144x32_S3538944x1_S3538944x32_1_0_0_1 : ScatterDims S262144x32 S3538944x1 S3538944x32 where
  updateWindowDims := [1]
  insertedWindowDims := [0]
  scatterDimsToOperandDims := [0]
  indexVectorDim := 1
  wf := scatter_S262144x32_S3538944x1_S3538944x32_1_0_0_1_wf

abbrev win0_0 : Pipeline.Window sig grid0 :=
  Pipeline.Window.ofSpec (Memref.whole main_v9) S1x8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x8192x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x32 : Shape := ⟨2, ![262144, 32]⟩
abbrev S27x32x32 : Shape := ⟨3, ![27, 32, 32]⟩
abbrev S32 : Shape := ⟨1, ![32]⟩
abbrev S3538944x2 : Shape := ⟨2, ![3538944, 2]⟩
abbrev S27 : Shape := ⟨1, ![27]⟩
abbrev S3538944x1 : Shape := ⟨2, ![3538944, 1]⟩
abbrev S3538944 : Shape := ⟨1, ![3538944]⟩
abbrev S_ : Shape := ⟨0, ![]⟩
abbrev S3538944x32 : Shape := ⟨2, ![3538944, 32]⟩
abbrev S27x131072x32 : Shape := ⟨3, ![27, 131072, 32]⟩
abbrev S1x32 : Shape := ⟨2, ![1, 32]⟩

abbrev nBuf : Space → Nat
  | .hbm => 28
  | .vmem => 0
  | .smem => 0
  | _ => 0

abbrev bufTy : (tb : Table) → Fin (tcTables nBuf tb) → BufTy
  | .hbm, ⟨0, _⟩ => ⟨S262144x32, .f32⟩
  | .hbm, ⟨1, _⟩ => ⟨S27x32x32, .f32⟩
  | .hbm, ⟨2, _⟩ => ⟨S32, .f32⟩
  | .hbm, ⟨3, _⟩ => ⟨S3538944x2, .i32⟩
  | .hbm, ⟨4, _⟩ => ⟨S27, .i32⟩
  | .hbm, ⟨5, _⟩ => ⟨S3538944x1, .i32⟩
  | .hbm, ⟨6, _⟩ => ⟨S3538944, .i32⟩
  | .hbm, ⟨7, _⟩ => ⟨S_, .i32⟩
  | .hbm, ⟨8, _⟩ => ⟨S3538944, .i32⟩
  | .hbm, ⟨9, _⟩ => ⟨S3538944, .i1⟩
  | .hbm, ⟨10, _⟩ => ⟨S_, .i32⟩
  | .hbm, ⟨11, _⟩ => ⟨S3538944, .i32⟩
  | .hbm, ⟨12, _⟩ => ⟨S3538944, .i32⟩
  | .hbm, ⟨13, _⟩ => ⟨S3538944, .i32⟩
  | .hbm, ⟨14, _⟩ => ⟨S3538944x1, .i32⟩
  | .hbm, ⟨15, _⟩ => ⟨S3538944x32, .f32⟩
  | .hbm, ⟨16, _⟩ => ⟨S27x131072x32, .f32⟩
  | .hbm, ⟨17, _⟩ => ⟨S27x131072x32, .f32⟩
  | .hbm, ⟨18, _⟩ => ⟨S3538944x32, .f32⟩
  | .hbm, ⟨19, _⟩ => ⟨S3538944x1, .i32⟩
  | .hbm, ⟨20, _⟩ => ⟨S3538944, .i32⟩
  | .hbm, ⟨21, _⟩ => ⟨S_, .f32⟩
  | .hbm, ⟨22, _⟩ => ⟨S262144x32, .f32⟩
  | .hbm, ⟨23, _⟩ => ⟨S3538944x1, .i32⟩
  | .hbm, ⟨24, _⟩ => ⟨S262144x32, .f32⟩
  | .hbm, ⟨25, _⟩ => ⟨S1x32, .f32⟩
  | .hbm, ⟨26, _⟩ => ⟨S262144x32, .f32⟩
  | .hbm, ⟨27, _⟩ => ⟨S262144x32, .f32⟩
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  slices_S3538944x2_S3538944x1_0_0 : S3538944x2.Slices ![0, 0] S3538944x1
  shapeCasts_S3538944x1_S3538944 : S3538944x1.ShapeCasts S3538944
  bcast_S_S3538944 : S_.BroadcastsInDim S3538944 (![] : Fin 0 → Fin S3538944.rank)
  bcast_S3538944_S3538944x1_0 : S3538944.BroadcastsInDim S3538944x1 (![0] : Fin 1 → Fin S3538944x1.rank)
  shapeCasts_S3538944x32_S27x131072x32 : S3538944x32.ShapeCasts S27x131072x32
  shapeCasts_S27x131072x32_S3538944x32 : S27x131072x32.ShapeCasts S3538944x32
  slices_S3538944x2_S3538944x1_0_1 : S3538944x2.Slices ![0, 1] S3538944x1
  bcast_S_S262144x32 : S_.BroadcastsInDim S262144x32 (![] : Fin 0 → Fin S262144x32.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  gather_S262144x32_S3538944x1_S3538944x32_1_0_n_n_0_1_132_wf : GatherDims.WF S262144x32 S3538944x1 S3538944x32 [1] [0] [] [0] [] 1 ![1, 32]
  dot_S27x131072x32_S27x32x32_S27x131072x32_2_1_1_2_0_0_wf : DotDims.WF S27x131072x32 S27x32x32 S27x131072x32 [2] [1] [1] [2] [0] [0]
  scatter_S262144x32_S3538944x1_S3538944x32_1_0_0_1_wf : ScatterDims.WF S262144x32 S3538944x1 S3538944x32 [1] [0] [0] 1

variable [Facts₀]

def gather_S262144x32_S3538944x1_S3538944x32_1_0_n_n_0_1_132 : GatherDims S262144x32 S3538944x1 S3538944x32 where
  offsetDims := [1]
  collapsedSliceDims := [0]
  operandBatchingDims := []
  startIndicesBatchingDims := []
  startIndexMap := [0]
  indexVectorDim := 1
  sliceSizes := ![1, 32]
  wf := gather_S262144x32_S3538944x1_S3538944x32_1_0_n_n_0_1_132_wf
def dot_S27x131072x32_S27x32x32_S27x131072x32_2_1_1_2_0_0 : DotDims S27x131072x32 S27x32x32 S27x131072x32 where
  lhsContracting := [2]
  rhsContracting := [1]
  lhsNonContracting := [1]
  rhsNonContracting := [2]
  lhsBatch := [0]
  rhsBatch := [0]
  wf := dot_S27x131072x32_S27x32x32_S27x131072x32_2_1_1_2_0_0_wf
def scatter_S262144x32_S3538944x1_S3538944x32_1_0_0_1 : ScatterDims S262144x32 S3538944x1 S3538944x32 where
  updateWindowDims := [1]
  insertedWindowDims := [0]
  scatterDimsToOperandDims := [0]
  indexVectorDim := 1
  wf := scatter_S262144x32_S3538944x1_S3538944x32_1_0_0_1_wf

class Facts : Prop extends Facts₀ where

variable [Facts]
-- ==== Proof.BlockProduct.lean ====
/-
  One tile of the per-offset product. At a grid point the body holds a [1, 8192, 32] tile `g` of gathered
  feature rows and the [1, 32, 32] weight matrix `w` of the tile's kernel offset, and stores the matrix
  product of the two (both first narrowed to bf16, which is no change on the extended reals, and
  accumulated from zero). Read at an entry (row p, output channel o) the stored tile is
  `∑ i : Fin 32, g[0, p, i] * w[0, i, o]`: the sum over the one contracted axis, the input channel.
-/
import proofs.«147272_j1125281432057_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-! ## The operand indices of the tile's product -/

/-- The left operand's row is the output's row. -/
theorem lhs_row (j : S8192x32.Idx) (q : dot_S8192x32_S32x32_S8192x32_1_0_0_1_n_n.contr.Idx) :
    (dot_S8192x32_S32x32_S8192x32_1_0_0_1_n_n.lhsIdx j q 0).val = (j 0).val := by
  unfold DotDims.lhsIdx
  rw [dif_neg (show ¬(0 : Fin S8192x32.rank) ∈ dot_S8192x32_S32x32_S8192x32_1_0_0_1_n_n.lhsBatch by decide), dif_pos (show (0 : Fin S8192x32.rank) ∈ dot_S8192x32_S32x32_S8192x32_1_0_0_1_n_n.lhsNonContracting by decide)]
  rfl
/-- The left operand's column is the contraction position. -/
theorem lhs_col (j : S8192x32.Idx) (q : dot_S8192x32_S32x32_S8192x32_1_0_0_1_n_n.contr.Idx) :
    (dot_S8192x32_S32x32_S8192x32_1_0_0_1_n_n.lhsIdx j q 1).val = (q ⟨0, by decide⟩).val :=
  dot_S8192x32_S32x32_S8192x32_1_0_0_1_n_n.lhsIdx_val_of_single rfl j q
/-- The right operand's row is the contraction position. -/
theorem rhs_row (j : S8192x32.Idx) (q : dot_S8192x32_S32x32_S8192x32_1_0_0_1_n_n.contr.Idx) :
    (dot_S8192x32_S32x32_S8192x32_1_0_0_1_n_n.rhsIdx j q 0).val = (q ⟨0, by decide⟩).val :=
  dot_S8192x32_S32x32_S8192x32_1_0_0_1_n_n.rhsIdx_val_of_single rfl j q
/-- The right operand's column is the output's column. -/
theorem rhs_col (j : S8192x32.Idx) (q : dot_S8192x32_S32x32_S8192x32_1_0_0_1_n_n.contr.Idx) :
    (dot_S8192x32_S32x32_S8192x32_1_0_0_1_n_n.rhsIdx j q 1).val = (j 1).val := by
  unfold DotDims.rhsIdx
  rw [dif_neg (show ¬(1 : Fin S32x32.rank) ∈ dot_S8192x32_S32x32_S8192x32_1_0_0_1_n_n.rhsBatch by decide), dif_pos (show (1 : Fin S32x32.rank) ∈ dot_S8192x32_S32x32_S8192x32_1_0_0_1_n_n.rhsNonContracting by decide)]
  rfl

/-- The [8192, 32] × [32, 32] product into a zero accumulator, at (p, o): the sum over the input channel. -/
theorem product_at (a : FVec Ideal S8192x32 .bf16) (b : FVec Ideal S32x32 .bf16) (p : Fin 8192) (o : Fin 32) :
    matmul dot_S8192x32_S32x32_S8192x32_1_0_0_1_n_n none a b (constant (F := Ideal) S8192x32 .f32 0x00000000#32) (ix2 p o)
      = ∑ i : Fin 32, a (ix2 p i) * b (ix2 i o) := by
  simp only [matmul]
  rw [Ideal.matmul_constant_zero_apply, ← Equiv.sum_comp (ValueIdx.contrEquiv1 dot_S8192x32_S32x32_S8192x32_1_0_0_1_n_n 32 rfl rfl).symm]
  refine Finset.sum_congr rfl fun k _ => ?_
  have hk := ValueIdx.contrEquiv1_symm_val dot_S8192x32_S32x32_S8192x32_1_0_0_1_n_n 32 rfl rfl k
  have el : dot_S8192x32_S32x32_S8192x32_1_0_0_1_n_n.lhsIdx (ix2 p o) ((ValueIdx.contrEquiv1 dot_S8192x32_S32x32_S8192x32_1_0_0_1_n_n 32 rfl rfl).symm k) = ix2 p k := funext fun a => Fin.ext (by
    match a with
    | ⟨0, _⟩ => exact lhs_row _ _
    | ⟨1, _⟩ => exact (lhs_col _ _).trans hk)
  have er : dot_S8192x32_S32x32_S8192x32_1_0_0_1_n_n.rhsIdx (ix2 p o) ((ValueIdx.contrEquiv1 dot_S8192x32_S32x32_S8192x32_1_0_0_1_n_n 32 rfl rfl).symm k) = ix2 k o := funext fun a => Fin.ext (by
    match a with
    | ⟨0, _⟩ => exact (rhs_row _ _).trans hk
    | ⟨1, _⟩ => exact rhs_col _ _)
  rw [el, er]

/-! ## The stored tile at an entry -/

/-- The body's one store, at entry (0, p, o) of the tile: the unit axis is cast away from both loads and put
    back on the product, and the narrowing to bf16 is the identity. -/
theorem stored_at (g : Vec Ideal S1x8192x32 .f32) (w : Vec Ideal S1x32x32 .f32) (z : Fin 1) (p : Fin 8192) (o : Fin 32) :
    k0_pay1 (F := Ideal) g w (ix3 z p o) = ∑ i : Fin 32, g (ix3 (0 : Fin 1) p i) * w (ix3 (0 : Fin 1) i o) := by
  unfold k0_pay1
  refine (shapeCast_apply _ shapeCasts_S8192x32_S1x8192x32 (ix3 z p o) (ix2 p o) (by
    rewrite [Shape.rowMajor_val_two, Shape.rowMajor_val_three]
    have hz : z.val = 0 := by have := z.isLt; omega
    show p.val * 32 + o.val = (z.val * 8192 + p.val) * 32 + o.val
    rw [hz]; omega)).trans ?_
  rw [product_at]
  refine Finset.sum_congr rfl fun i _ => ?_
  rw [truncf_apply, truncf_apply]
  congr 1
  · exact shapeCast_apply g shapeCasts_S1x8192x32_S8192x32 (ix2 p i) (ix3 (0 : Fin 1) p i) (by
      rewrite [Shape.rowMajor_val_three, Shape.rowMajor_val_two]
      show ((0 : Fin 1).val * 8192 + p.val) * 32 + i.val = p.val * 32 + i.val
      simp)
  · exact shapeCast_apply w shapeCasts_S1x32x32_S32x32 (ix2 i o) (ix3 (0 : Fin 1) i o) (by
      rewrite [Shape.rowMajor_val_three, Shape.rowMajor_val_two]
      show ((0 : Fin 1).val * 32 + i.val) * 32 + o.val = i.val * 32 + o.val
      simp)

end Cert.KernelIdeal.Tile

end
-- ==== Proof.PerOffsetProduct.lean ====
/-
  The per-offset product, as one function of whole arrays. The gathered features `g` are laid out
  [27 kernel offsets, 131072 pairs per offset, 32 input channels] and the weights `w`
  [27 offsets, 32 input channels, 32 output channels]; entry (k, p, o) of the product is the pair's feature
  row times the offset's weight matrix, `∑ i : Fin 32, g[k, p, i] * w[k, i, o]`. Both programs compute this
  array between the same gather and the same scatter-add: one tile by tile, the other in one batched
  contraction.
-/
import Idealize.ShloMosaic.PureOps.Ideal
import Idealize.ShloMosaic.Lib.ValueIdx

noncomputable section

namespace Cert.Spec

open Idealize.ShloMosaic Idealize.ShloMosaic.ValueIdx

/-- Entry (k, p, o): the sum over the input channel `i` of `g[k, p, i] * w[k, i, o]`. -/
def perOffsetProduct (g : (⟨3, ![27, 131072, 32]⟩ : Shape).Idx → EReal) (w : (⟨3, ![27, 32, 32]⟩ : Shape).Idx → EReal) :
    (⟨3, ![27, 131072, 32]⟩ : Shape).Idx → EReal :=
  fun j => ∑ i : Fin 32, g (ix3 (j 0) (j 1) i) * w (ix3 (j 0) i (j 2))

theorem perOffsetProduct_apply (g : (⟨3, ![27, 131072, 32]⟩ : Shape).Idx → EReal) (w : (⟨3, ![27, 32, 32]⟩ : Shape).Idx → EReal)
    (k : Fin 27) (p : Fin 131072) (o : Fin 32) :
    perOffsetProduct g w (ix3 k p o) = ∑ i : Fin 32, g (ix3 k p i) * w (ix3 k i o) := rfl

end Cert.Spec

end
-- ==== Proof.ProductArray.lean ====
/-
  From tiles to the whole product array. The grid has 27 × 16 points; point t = (k, s) reads rows
  [8192 s, 8192 (s + 1)) of offset k's gathered features and offset k's weight matrix, and writes the same
  rows of offset k's slice of the result. So what a point writes back is its block of the per-offset product
  of the whole arrays; the blocks tile the result (row r of offset k lies in the block of point 16 k + r / 8192),
  and after the last point the result array is the per-offset product.
-/
import proofs.«147272_j1125281432057_1_alg».proof.Proof.BlockProduct
import proofs.«147272_j1125281432057_1_alg».proof.Proof.PerOffsetProduct

set_option maxRecDepth 16384

noncomputable section

namespace Cert.KernelIdeal.Tile

open Cert.KernelIdeal Cert.KernelIdeal.Gen Idealize.ShloMosaic Idealize.ShloMosaic.TcCoe Idealize.ShloMosaic.ValueIdx
open Idealize.SL.Sem
open Idealize.ShloMosaic.Pipeline (Dat)
open Cert.Spec

variable (m : (ℓ : Loc nD τ sig) → Buf (Elt Ideal) ℓ)

/-- The gathered features, laid out by offset, as the region finds them. -/
abbrev feats (c : Dev nD) : S27x131072x32.Idx → EReal := V m c main_v9
/-- The weights as the region finds them. -/
abbrev weights (c : Dev nD) : S27x32x32.Idx → EReal := V m c main_arg1

theorem zero_offsets : (![0, 0, 0] : Fin 3 → Nat) = fun _ => 0 := funext fun a => by fin_cases a <;> rfl

/-- The printed index maps over the grid: at point t the three windows sit at offset t / 16; the feature and
    result windows at row block t % 16; every other block index is 0. -/
theorem block_indices : ∀ t : Fin cfg0.N,
    win0_2.index t (0 : Fin 3) = t.val / 16 ∧ win0_2.index t (1 : Fin 3) = t.val % 16 ∧ win0_2.index t (2 : Fin 3) = 0
    ∧ win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0 :=
  (by decide +kernel : ∀ t : Fin grid0.N, _)

/-- What point t writes back is block t of the per-offset product of the feature array and the weights as the
    region finds them. -/
theorem flushed_eq (c : Dev nD) (t : Fin cfg0.N) :
    (dats m 0 c).flushed 2 t
      = ((cfg0.win 2).blk t).view.read (Elt Ideal) (perOffsetProduct (feats m c) (weights m c)) := by
  show (cfg0.win 2).cut (grid0.coords t) ((dats m 0 c).after 2 t) = _
  rw [after0_2]
  unfold out0_2
  rw [View.canon_unit_zero zero_offsets]
  simp only [View.ld_unit_zero (S := S1x8192x32) zero_offsets, View.ld_unit_zero (S := S1x32x32) zero_offsets]
  obtain ⟨e0, e1, e2, f0, f1, f2, g0, g1, g2⟩ := block_indices t
  funext y
  obtain ⟨z, p, o, rfl⟩ : ∃ (z : Fin 1) (p : Fin 8192) (o : Fin 32), y = ix3 z p o := ⟨y 0, y 1, y 2, eq_ix3 y⟩
  have hz : z.val = 0 := by have := z.isLt; omega
  refine (stored_at (iblk m c 0 t) (iblk m c 1 t) z p o).trans ?_
  show ∑ i : Fin 32, feats m c (((cfg0.win 0).blk t).view.emb (ix3 (0 : Fin 1) p i)) * weights m c (((cfg0.win 1).blk t).view.emb (ix3 (0 : Fin 1) i o))
    = ∑ i : Fin 32, feats m c (ix3 ((((cfg0.win 2).blk t).view.emb (ix3 z p o)) 0) ((((cfg0.win 2).blk t).view.emb (ix3 z p o)) 1) i)
        * weights m c (ix3 ((((cfg0.win 2).blk t).view.emb (ix3 z p o)) 0) i ((((cfg0.win 2).blk t).view.emb (ix3 z p o)) 2))
  refine Finset.sum_congr rfl fun i _ => ?_
  have hg : ((cfg0.win 0).blk t).view.emb (ix3 (0 : Fin 1) p i)
      = ix3 ((((cfg0.win 2).blk t).view.emb (ix3 z p o)) 0) ((((cfg0.win 2).blk t).view.emb (ix3 z p o)) 1) i := by
    funext a; apply Fin.ext
    match a with
    | ⟨0, _⟩ => show win0_0.index t (0 : Fin 3) * 1 + 1 * (0 : Fin 1).val = win0_2.index t (0 : Fin 3) * 1 + 1 * z.val; simp only [Fin.val_zero]; omega
    | ⟨1, _⟩ => show win0_0.index t (1 : Fin 3) * 8192 + 1 * p.val = win0_2.index t (1 : Fin 3) * 8192 + 1 * p.val; omega
    | ⟨2, _⟩ => show win0_0.index t (2 : Fin 3) * 32 + 1 * i.val = i.val; omega
  have hw : ((cfg0.win 1).blk t).view.emb (ix3 (0 : Fin 1) i o)
      = ix3 ((((cfg0.win 2).blk t).view.emb (ix3 z p o)) 0) i ((((cfg0.win 2).blk t).view.emb (ix3 z p o)) 2) := by
    funext a; apply Fin.ext
    match a with
    | ⟨0, _⟩ => show win0_1.index t (0 : Fin 3) * 1 + 1 * (0 : Fin 1).val = win0_2.index t (0 : Fin 3) * 1 + 1 * z.val; simp only [Fin.val_zero]; omega
    | ⟨1, _⟩ => show win0_1.index t (1 : Fin 3) * 32 + 1 * i.val = i.val; omega
    | ⟨2, _⟩ => show win0_1.index t (2 : Fin 3) * 32 + 1 * o.val = win0_2.index t (2 : Fin 3) * 32 + 1 * o.val; omega
  rw [hg, hw]
  rfl

/-- An index of the result array is in point t's block iff each coordinate is in the block's range on its axis. -/
theorem mem_block (t : Fin cfg0.N) (i : S27x131072x32.Idx) :
    i ∈ ((cfg0.win 2).blk t).view.set ↔ ∀ a : Fin 3, win0_2.index t a * S1x8192x32.size a ≤ (i a).val ∧ (i a).val < win0_2.index t a * S1x8192x32.size a + S1x8192x32.size a := by
  show i ∈ ((View.whole main_v10).slice (win0_2.rect t)).set ↔ _
  rw [View.set_slice_whole, Rect.mem_set_unit]
  exact Iff.rfl

/-- Every entry of the result array lies in some point's block: row r of offset k in that of point 16 k + r / 8192. -/
theorem blocks_cover (i : S27x131072x32.Idx) :
    ∃ t : Fin cfg0.N, (cfg0.win 2).flush t = true ∧ i ∈ ((cfg0.win 2).blk t).view.set := by
  have h0 : (i 0).val < 27 := (i 0).isLt
  have h1 : (i 1).val < 131072 := (i 1).isLt
  have h2 : (i 2).val < 32 := (i 2).isLt
  have hN : (i 0).val * 16 + (i 1).val / 8192 < cfg0.N := by show _ < grid0.N; rw [N_0]; omega
  refine ⟨⟨(i 0).val * 16 + (i 1).val / 8192, hN⟩, flush0_2 _, ?_⟩
  obtain ⟨e0, e1, e2, -⟩ := block_indices ⟨(i 0).val * 16 + (i 1).val / 8192, hN⟩
  rw [mem_block]
  intro a
  match a with
  | ⟨0, _⟩ => show win0_2.index _ (0 : Fin 3) * 1 ≤ (i 0).val ∧ (i 0).val < win0_2.index _ (0 : Fin 3) * 1 + 1; rw [e0]; show ((i 0).val * 16 + (i 1).val / 8192) / 16 * 1 ≤ (i 0).val ∧ (i 0).val < ((i 0).val * 16 + (i 1).val / 8192) / 16 * 1 + 1; omega
  | ⟨1, _⟩ => show win0_2.index _ (1 : Fin 3) * 8192 ≤ (i 1).val ∧ (i 1).val < win0_2.index _ (1 : Fin 3) * 8192 + 8192; rw [e1]; show ((i 0).val * 16 + (i 1).val / 8192) % 16 * 8192 ≤ (i 1).val ∧ (i 1).val < ((i 0).val * 16 + (i 1).val / 8192) % 16 * 8192 + 8192; omega
  | ⟨2, _⟩ => show win0_2.index _ (2 : Fin 3) * 32 ≤ (i 2).val ∧ (i 2).val < win0_2.index _ (2 : Fin 3) * 32 + 32; rw [e2]; omega

/-- After the last point the result array is the per-offset product of the arrays the region found. -/
theorem product_array (c : Dev nD) :
    (dats m 0 c).arrAt 2 cfg0.N = perOffsetProduct (feats m c) (weights m c) :=
  (dats m 0 c).arrAt_eq_of_cover 2 _ (fun t _ => flushed_eq m c t) blocks_cover

end Cert.KernelIdeal.Tile

end
-- ==== Proof.ReferenceProduct.lean ====
/-
  The reference's side. Its one contraction is batched over the 27 kernel offsets and contracts the input
  channel, so at (k, p, o) it is `∑ i, g[k, p, i] * w[k, i, o]`: the per-offset product. What follows the
  product is the same in both programs and is never opened here: the rows, as one list of 3538944 pairs, are
  scatter-added into zeros at each pair's output voxel, and the bias is added to every row.
-/
import proofs.«147272_j1125281432057_1_alg».proof.Proof.Gen.ReferenceIdeal.Read
import proofs.«147272_j1125281432057_1_alg».proof.Proof.PerOffsetProduct

set_option maxRecDepth 16384

noncomputable section

namespace Cert.ReferenceIdeal.Batched

open Cert.ReferenceIdeal Cert.ReferenceIdeal.Gen Cert.ReferenceIdeal.Read Idealize.ShloMosaic Idealize.ShloMosaic.ValueIdx
open Cert.Spec

/-- The reference's batched contraction of the gathered features with the weights is their per-offset product. -/
theorem contraction_eq (x0 : (⟨S262144x32, .f32⟩ : BufTy).Contents (Elt Ideal)) (x1 : (⟨S27x32x32, .f32⟩ : BufTy).Contents (Elt Ideal))
    (x3 : (⟨S3538944x2, .i32⟩ : BufTy).Contents (Elt Ideal)) :
    val_main_v10 (F := Ideal) x0 x1 x3 = perOffsetProduct (val_main_v9 (F := Ideal) x0 x3) x1 := by
  funext j
  rw [val_main_v10_apply]
  have hl : ∀ k : Fin 32, lidx_main_v10 j k = ix3 (j 0) (j 1) k := fun k => funext fun a => by
    match a with | ⟨0, _⟩ => rfl | ⟨1, _⟩ => rfl | ⟨2, _⟩ => rfl
  have hr : ∀ k : Fin 32, ridx_main_v10 j k = ix3 (j 0) k (j 2) := fun k => funext fun a => by
    match a with | ⟨0, _⟩ => rfl | ⟨1, _⟩ => rfl | ⟨2, _⟩ => rfl
  simp only [hl, hr]
  rfl

/-- What both programs do with the product array `y`: reshape it to one row per pair, scatter-add the rows
    into zeros at the pairs' output voxels (second column of the pair list `x3`), add the bias `x2`. -/
def scatterBias (y : FVec Ideal S27x131072x32 .f32) (x2 : FVec Ideal S32 .f32) (x3 : IVec S3538944x2 32) : FVec Ideal S262144x32 .f32 :=
  addf (F := Ideal) (Host.scatterAdd (F := Ideal) scatter_S262144x32_S3538944x1_S3538944x32_1_0_0_1 (val_main_v14 (F := Ideal)) (val_main_v15 (F := Ideal) x3)
    (shapeCast S3538944x32 y shapeCasts_S27x131072x32_S3538944x32)) (val_main_v18 (F := Ideal) x2)

/-- The reference's result is that tail of its contraction. -/
theorem result_eq (x0 : (⟨S262144x32, .f32⟩ : BufTy).Contents (Elt Ideal)) (x1 : (⟨S27x32x32, .f32⟩ : BufTy).Contents (Elt Ideal))
    (x2 : (⟨S32, .f32⟩ : BufTy).Contents (Elt Ideal)) (x3 : (⟨S3538944x2, .i32⟩ : BufTy).Contents (Elt Ideal)) :
    val_main_v19 (F := Ideal) x0 x1 x2 x3 = scatterBias (val_main_v10 (F := Ideal) x0 x1 x3) x2 x3 := rfl

end Cert.ReferenceIdeal.Batched

end
-- ==== Proof.KernelResult.lean ====
/-
  The kernel program's result. Before the region its host lines gather the feature rows of the pairs' input
  voxels and lay them out by offset: the same stage the reference computes. The region leaves the per-offset
  product of that array with the weights. After the region the same tail as the reference's runs on it: the
  rows scatter-added into zeros by output voxel, plus the bias.
-/
import proofs.«147272_j1125281432057_1_alg».proof.Proof.ProductArray
import proofs.«147272_j1125281432057_1_alg».proof.Proof.ReferenceProduct
import Idealize.ShloMosaic.Lib.StableHlo.Run

set_option maxRecDepth 16384

noncomputable section

namespace Cert.KernelIdeal.Tile

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.Spec

variable (m : (ℓ : Loc nD τ sig) → Buf (Elt Ideal) ℓ) (ρ : Dev nD → PrngReg)

/-- The feature array the region finds is the gather of the input voxels' rows, laid out by offset. -/
theorem feats_eq (c : Dev nD) :
    feats m c = Cert.ReferenceIdeal.Read.val_main_v9 (F := Ideal) (m ((c.tc : Thread nD τ).loc main_arg0)) (m ((c.tc : Thread nD τ).loc main_arg3)) := by
  show StableHlo.after hostOps0 (fun b => m (c, b)) (Proc.devRef .tc main_v9) = _
  after_results
  rfl

/-- The weights the region finds are the launch's. -/
theorem weights_eq (c : Dev nD) : weights m c = m ((c.tc : Thread nD τ).loc main_arg1) := V_main_arg1 m c

/-- The result buffer after the lines that follow the region. -/
theorem tail_eq (c : Dev nD) :
    Pipeline.afterTail₀ cfgs (dats m) 0 (V0 m) [hostOps1] c main_v19
      = Cert.ReferenceIdeal.Batched.scatterBias ((dats m 0 c).arrAt 2 cfg0.N) (m ((c.tc : Thread nD τ).loc main_arg2)) (m ((c.tc : Thread nD τ).loc main_arg3)) := by
  unfold Pipeline.afterTail₀
  show StableHlo.after hostOps1 _ (Proc.devRef .tc main_v19) = _
  after_results
  have hprod : Pipeline.withArrays (cfgs 0).spec c (V0 m c) (fun w => (dats m 0 c).arrAt w (cfgs 0).N) (Proc.devRef .tc main_v10)
      = (dats m 0 c).arrAt 2 cfg0.N :=
    Pipeline.withArrays_arr spec0 launch0.win.arr_inj c _ _ 2
  have hpairs : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  have hbias : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  rw [hprod, hpairs, hbias]
  rfl

/-- The kernel program's run, its result named: every weakly fair execution terminates with the result buffer at
    the shared tail of the per-offset product of the gathered features with the weights, every argument unchanged. -/
theorem run : θ_run defs (onTc (τ := τ) (main (F := Ideal))) ⟨m, fun _ => 0, ρ⟩ fun r => ∀ c : Dev nD,
      r.2.mem ((c.tc : Thread nD τ).loc main_v19)
        = Cert.ReferenceIdeal.Batched.scatterBias
            (perOffsetProduct
              (Cert.ReferenceIdeal.Read.val_main_v9 (F := Ideal) (m ((c.tc : Thread nD τ).loc main_arg0)) (m ((c.tc : Thread nD τ).loc main_arg3)))
              (m ((c.tc : Thread nD τ).loc main_arg1)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨
      ((h c).2 main_v19 (Pipeline.mem_restRefs_of main_v19 (by decide) (by decide))).trans
        ((tail_eq m c).trans (by rw [product_array, feats_eq, weights_eq])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Tile

end
-- ==== Proof.lean ====
/-
  A sparse 3-D convolution through a kernel map. For each of 3538944 (input voxel, output voxel) pairs, grouped
  by kernel offset into 27 groups of 131072, the input voxel's 32-channel feature row is gathered, multiplied
  by the offset's 32 × 32 weight matrix, and scatter-added into the output voxel's row; a bias row is added
  to every output row. The kernel program and the reference gather, scatter-add and add the bias with the
  same host operations on the same operands; they differ only in the product. The kernel computes it tile by
  tile (8192 pairs of one offset at a time, operands narrowed to bf16, accumulated from zero), the reference
  in one contraction batched over the offsets. On the extended reals the narrowing is the identity and each
  entry of either product is the same 32-term sum `∑ i, g[k, p, i] * w[k, i, o]`, so the two product arrays
  are equal and the shared tail carries the equality to the results. No law beyond the sum's definition is
  used, so the inputs' finiteness is never opened.
-/
import proofs.«147272_j1125281432057_1_alg».proof.Defs
import proofs.«147272_j1125281432057_1_alg».proof.Proof.Gen.Kernel
import proofs.«147272_j1125281432057_1_alg».proof.Proof.Gen.Kernel.Skeleton
import proofs.«147272_j1125281432057_1_alg».proof.Proof.Gen.Kernel.Launch
import proofs.«147272_j1125281432057_1_alg».proof.Proof.Gen.Kernel.Points
import proofs.«147272_j1125281432057_1_alg».proof.Proof.Gen.Kernel.Frame
import proofs.«147272_j1125281432057_1_alg».proof.Proof.Gen.KernelIdeal
import proofs.«147272_j1125281432057_1_alg».proof.Proof.Gen.KernelIdeal.Skeleton
import proofs.«147272_j1125281432057_1_alg».proof.Proof.Gen.KernelIdeal.Launch
import proofs.«147272_j1125281432057_1_alg».proof.Proof.Gen.KernelIdeal.Points
import proofs.«147272_j1125281432057_1_alg».proof.Proof.Gen.KernelIdeal.Frame
import proofs.«147272_j1125281432057_1_alg».proof.Proof.Gen.ReferenceIdeal
import proofs.«147272_j1125281432057_1_alg».proof.Proof.Gen.ReferenceIdeal.Run
import proofs.«147272_j1125281432057_1_alg».proof.Proof.Gen.ReferenceIdeal.Read
import proofs.«147272_j1125281432057_1_alg».proof.Proof.Gen.Pre_finite_inputs
import proofs.«147272_j1125281432057_1_alg».proof.Proof.KernelResult
import proofs.«147272_j1125281432057_1_alg».proof.Proof.ReferenceProduct
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both results are the shared tail of the per-offset product of the gathered features with the weights. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Batched.result_eq, Cert.ReferenceIdeal.Batched.contraction_eq,
    (hagree c).1, (hagree c).2.1, (hagree c).2.2.1, (hagree c).2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
